-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S4096x2048 .f32) (main_arg8 : FVec F S2048 .f32) (main_arg9 : FVec F S4096x2048 .f32) (main_arg10 : FVec F S2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x256 : Shape := ⟨2, ![2048, 256]⟩
abbrev S1x256 : Shape := ⟨2, ![1, 256]⟩
abbrev S512x256 : Shape := ⟨2, ![512, 256]⟩

abbrev nBuf : Space → Nat
  | .hbm => 35
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x2048, .bf16⟩
  | .hbm, ⟨12, _⟩ => ⟨S4096x2048, .bf16⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S2048x2048, .f32⟩
  | .hbm, ⟨28, _⟩ => ⟨S2048x2048, .bf16⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S4096x2048, .f32⟩
  | .hbm, ⟨34, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  slices_S4096x2048_S2048x2048_0_0 : S4096x2048.Slices ![0, 0] S2048x2048
  slices_S4096x2048_S2048x2048_2048_0 : S4096x2048.Slices ![2048, 0] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .bf16 = 32 ∨ (Rect.block (s := S2048x2048) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S4096x2048.size a
  hwx0_14 : ∀ i : grid0.Coords, EltTy.bits .f32 = 32 ∨ (Rect.block (s := S4096x2048) S512x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S512x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v22_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v22_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048 : Shape := ⟨1, ![2048]⟩
abbrev S4096x4096 : Shape := ⟨2, ![4096, 4096]⟩
abbrev S4096x8192 : Shape := ⟨2, ![4096, 8192]⟩
abbrev S8192 : Shape := ⟨1, ![8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x4096, .f32⟩
  | .hbm, ⟨12, _⟩ => ⟨S4096x8192, .f32⟩
  | .hbm, ⟨13, _⟩ => ⟨S8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.CellSpec.lean ====
/-
  One step of an LSTM cell, entry by entry, on the extended reals.

  The cell has a batch of 4096 rows and 2048 units. Its input at row r is the previous hidden state h(r, ·)
  followed by the new input x(r, ·), 2048 + 2048 = 4096 features in all. Each of the four gates g has a weight matrix
  W_g of 4096 rows and 2048 columns and a bias b_g of 2048 entries; its pre-activation at (r, c) is

      z_g(r, c) = ( Σ_l h(r, l) · W_g(l, c)  +  Σ_l x(r, l) · W_g(2048 + l, c) )  +  b_g(c),

  the first sum over the rows of W_g that meet the hidden state, the second over the rows that meet the input. With
  σ(z) = 1 / (1 + e^(−z)) the new cell state and the new hidden state are

      c'(r, c) = σ(z_f) · c(r, c) + σ(z_i) · tanh(z_c),        h'(r, c) = σ(z_o) · tanh(c'(r, c)).

  Everything is read on the extended reals, with the conventions the ideal values give σ and tanh at ±∞.
-/
import Idealize.ShloMosaic.PureOps.Ideal.Laws
import Idealize.ShloMosaic.Lib.ValueIdx

open scoped BigOperators

noncomputable section

namespace Cert.LstmCell

open Idealize.ShloMosaic Idealize.ShloMosaic.ValueIdx

/-- A batch-by-units (or features-by-units: both are 4096 × 2048) array of extended reals. -/
abbrev Mat : Type := (⟨2, ![4096, 2048]⟩ : Shape).Idx → EReal
/-- A vector with one entry per unit. -/
abbrev Row : Type := (⟨1, ![2048]⟩ : Shape).Idx → EReal

/-- Row `l` of a weight matrix, among the rows that meet the hidden state. -/
def lo (l : Fin 2048) : Fin 4096 := ⟨l.val, by have := l.isLt; omega⟩
/-- Row `2048 + l` of a weight matrix, among the rows that meet the input. -/
def hi (l : Fin 2048) : Fin 4096 := ⟨2048 + l.val, by have := l.isLt; omega⟩

/-- A gate's pre-activation at row `r`, unit `c`. -/
def gate (h x W : Mat) (b : Row) (r : Fin 4096) (c : Fin 2048) : EReal :=
  (∑ l : Fin 2048, h (ix2 r l) * W (ix2 (lo l) c) + ∑ l : Fin 2048, x (ix2 r l) * W (ix2 (hi l) c)) + b (ix1 c)

/-- The new cell state: the forget gate times the old cell state plus the input gate times the candidate. -/
def nextCell (x h cell Wf : Mat) (bf : Row) (Wi : Mat) (bi : Row) (Wc : Mat) (bc : Row) : Mat := fun i =>
  Ideal.logistic (gate h x Wf bf (i 0) (i 1)) * cell i
    + Ideal.logistic (gate h x Wi bi (i 0) (i 1)) * Ideal.tanh (gate h x Wc bc (i 0) (i 1))

/-- The new hidden state: the output gate times tanh of the new cell state. -/
def nextHidden (x h cell Wf : Mat) (bf : Row) (Wi : Mat) (bi : Row) (Wo : Mat) (bo : Row) (Wc : Mat) (bc : Row) : Mat :=
  fun i => Ideal.logistic (gate h x Wo bo (i 0) (i 1)) * Ideal.tanh (nextCell x h cell Wf bf Wi bi Wc bc i)

end Cert.LstmCell

end
-- ==== Proof.KernelArrays.lean ====
/-
  What each tile of the kernel holds, in terms of the arguments.

  Before the grid runs, the host has cut each gate's 4096 × 2048 weight matrix into its first 2048 rows (the rows
  that meet the hidden state) and its last 2048 rows (those that meet the input), has changed the float format of the
  hidden state, the input and the weight halves, and has laid each bias out as one row. At the ideal values a change
  of format is the identity, so entry (l, c) of a first half is entry (l, c) of the matrix, entry (l, c) of a second
  half is entry (2048 + l, c), and entry (0, c) of a bias row is entry c of the bias.

  The grid has 8 × 8 points. Point t works on batch rows 512·a … 512·a + 511 and units 256·b … 256·b + 255, where
  (a, b) is the block index of the output tiles at t. The tiles of the hidden state and the input take all 2048
  columns of those rows; the weight tiles take all 2048 rows of those units; the bias tiles take those units; the
  cell-state tile takes those rows and units. Every relation between the windows' block indices is decided over the
  64 points.
-/
import proofs.«182229_j63505386439276_1_alg».proof.Proof.Gen.KernelIdeal.Frame
import proofs.«182229_j63505386439276_1_alg».proof.Proof.CellSpec
import Idealize.ShloMosaic.Lib.StableHlo.Run
import Idealize.ShloMosaic.Lib.ValueIdx
import Idealize.ShloMosaic.Lib.ValueLayout
import Idealize.ShloMosaic.Lib.Pipeline.Value

noncomputable section

namespace Cert.LstmCell.Arrays

open Idealize.ShloMosaic Idealize.ShloMosaic.TcCoe Idealize.ShloMosaic.ValueIdx Idealize.SL.Sem
open Cert.KernelIdeal Cert.KernelIdeal.Gen Cert.LstmCell

variable (m : (ℓ : Loc nD τ sig) → Buf (Elt Ideal) ℓ)

/-! ## The arrays the region finds -/

/-- The hidden state in the kernel's format. -/
theorem hidden_eq (c : Dev nD) : (V m c main_v0 : FVec Ideal S4096x2048 .bf16)
    = truncf (F := Ideal) .bf16 ((m ((c : Thread nD τ).loc main_arg1)) : FVec Ideal S4096x2048 .f32) bitsLt_bf16_f32 := by
  dsimp only [V, hostOps0]; after_results

/-- The input in the kernel's format. -/
theorem input_eq (c : Dev nD) : (V m c main_v1 : FVec Ideal S4096x2048 .bf16)
    = truncf (F := Ideal) .bf16 ((m ((c : Thread nD τ).loc main_arg0)) : FVec Ideal S4096x2048 .f32) bitsLt_bf16_f32 := by
  dsimp only [V, hostOps0]; after_results

/-- The forget gate's weight rows that meet the hidden state. -/
theorem wfh_eq (c : Dev nD) : (V m c main_v3 : FVec Ideal S2048x2048 .bf16)
    = truncf (F := Ideal) .bf16 (extractStridedSlice S2048x2048 ![0, 0] ((m ((c : Thread nD τ).loc main_arg3)) : FVec Ideal S4096x2048 .f32) slices_S4096x2048_S2048x2048_0_0) bitsLt_bf16_f32 := by
  dsimp only [V, hostOps0]; after_results

/-- The forget gate's weight rows that meet the input. -/
theorem wfx_eq (c : Dev nD) : (V m c main_v5 : FVec Ideal S2048x2048 .bf16)
    = truncf (F := Ideal) .bf16 (extractStridedSlice S2048x2048 ![2048, 0] ((m ((c : Thread nD τ).loc main_arg3)) : FVec Ideal S4096x2048 .f32) slices_S4096x2048_S2048x2048_2048_0) bitsLt_bf16_f32 := by
  dsimp only [V, hostOps0]; after_results

/-- The input gate's weight rows that meet the hidden state. -/
theorem wih_eq (c : Dev nD) : (V m c main_v7 : FVec Ideal S2048x2048 .bf16)
    = truncf (F := Ideal) .bf16 (extractStridedSlice S2048x2048 ![0, 0] ((m ((c : Thread nD τ).loc main_arg5)) : FVec Ideal S4096x2048 .f32) slices_S4096x2048_S2048x2048_0_0) bitsLt_bf16_f32 := by
  dsimp only [V, hostOps0]; after_results

/-- The input gate's weight rows that meet the input. -/
theorem wix_eq (c : Dev nD) : (V m c main_v9 : FVec Ideal S2048x2048 .bf16)
    = truncf (F := Ideal) .bf16 (extractStridedSlice S2048x2048 ![2048, 0] ((m ((c : Thread nD τ).loc main_arg5)) : FVec Ideal S4096x2048 .f32) slices_S4096x2048_S2048x2048_2048_0) bitsLt_bf16_f32 := by
  dsimp only [V, hostOps0]; after_results

/-- The output gate's weight rows that meet the hidden state. -/
theorem woh_eq (c : Dev nD) : (V m c main_v11 : FVec Ideal S2048x2048 .bf16)
    = truncf (F := Ideal) .bf16 (extractStridedSlice S2048x2048 ![0, 0] ((m ((c : Thread nD τ).loc main_arg7)) : FVec Ideal S4096x2048 .f32) slices_S4096x2048_S2048x2048_0_0) bitsLt_bf16_f32 := by
  dsimp only [V, hostOps0]; after_results

/-- The output gate's weight rows that meet the input. -/
theorem wox_eq (c : Dev nD) : (V m c main_v13 : FVec Ideal S2048x2048 .bf16)
    = truncf (F := Ideal) .bf16 (extractStridedSlice S2048x2048 ![2048, 0] ((m ((c : Thread nD τ).loc main_arg7)) : FVec Ideal S4096x2048 .f32) slices_S4096x2048_S2048x2048_2048_0) bitsLt_bf16_f32 := by
  dsimp only [V, hostOps0]; after_results

/-- The candidate's weight rows that meet the hidden state. -/
theorem wch_eq (c : Dev nD) : (V m c main_v15 : FVec Ideal S2048x2048 .bf16)
    = truncf (F := Ideal) .bf16 (extractStridedSlice S2048x2048 ![0, 0] ((m ((c : Thread nD τ).loc main_arg9)) : FVec Ideal S4096x2048 .f32) slices_S4096x2048_S2048x2048_0_0) bitsLt_bf16_f32 := by
  dsimp only [V, hostOps0]; after_results

/-- The candidate's weight rows that meet the input. -/
theorem wcx_eq (c : Dev nD) : (V m c main_v17 : FVec Ideal S2048x2048 .bf16)
    = truncf (F := Ideal) .bf16 (extractStridedSlice S2048x2048 ![2048, 0] ((m ((c : Thread nD τ).loc main_arg9)) : FVec Ideal S4096x2048 .f32) slices_S4096x2048_S2048x2048_2048_0) bitsLt_bf16_f32 := by
  dsimp only [V, hostOps0]; after_results

/-- The forget gate's bias as one row. -/
theorem bf_eq (c : Dev nD) : (V m c main_v18 : FVec Ideal S1x2048 .f32)
    = shapeCast S1x2048 ((m ((c : Thread nD τ).loc main_arg4)) : FVec Ideal S2048 .f32) shapeCasts_S2048_S1x2048 := by
  dsimp only [V, hostOps0]; after_results; rfl

/-- The input gate's bias as one row. -/
theorem bi_eq (c : Dev nD) : (V m c main_v19 : FVec Ideal S1x2048 .f32)
    = shapeCast S1x2048 ((m ((c : Thread nD τ).loc main_arg6)) : FVec Ideal S2048 .f32) shapeCasts_S2048_S1x2048 := by
  dsimp only [V, hostOps0]; after_results; rfl

/-- The output gate's bias as one row. -/
theorem bo_eq (c : Dev nD) : (V m c main_v20 : FVec Ideal S1x2048 .f32)
    = shapeCast S1x2048 ((m ((c : Thread nD τ).loc main_arg8)) : FVec Ideal S2048 .f32) shapeCasts_S2048_S1x2048 := by
  dsimp only [V, hostOps0]; after_results; rfl

/-- The candidate's bias as one row. -/
theorem bc_eq (c : Dev nD) : (V m c main_v21 : FVec Ideal S1x2048 .f32)
    = shapeCast S1x2048 ((m ((c : Thread nD τ).loc main_arg10)) : FVec Ideal S2048 .f32) shapeCasts_S2048_S1x2048 := by
  dsimp only [V, hostOps0]; after_results; rfl

/-! ## The three spellings read at an index -/

/-- The first 2048 rows of a weight matrix, in the kernel's format, at an index whose row is `l`. -/
theorem lo_apply (W : FVec Ideal S4096x2048 .f32) (l cc : Fin 2048) (i : S2048x2048.Idx)
    (h0 : (i 0).val = l.val) (h1 : (i 1).val = cc.val) :
    truncf (F := Ideal) .bf16 (extractStridedSlice S2048x2048 ![0, 0] W slices_S4096x2048_S2048x2048_0_0) bitsLt_bf16_f32 i
      = W (ix2 (lo l) cc) := by
  show extractStridedSlice S2048x2048 ![0, 0] W slices_S4096x2048_S2048x2048_0_0 i = _
  refine extractStridedSlice_apply ![0, 0] W slices_S4096x2048_S2048x2048_0_0 i (ix2 (lo l) cc) fun a => ?_
  ·
    match a with
    | ⟨0, _⟩ => show l.val = 0 + (i 0).val; omega
    | ⟨1, _⟩ => show cc.val = 0 + (i 1).val; omega

/-- The last 2048 rows of a weight matrix, in the kernel's format, at an index whose row is `l`. -/
theorem hi_apply (W : FVec Ideal S4096x2048 .f32) (l cc : Fin 2048) (i : S2048x2048.Idx)
    (h0 : (i 0).val = l.val) (h1 : (i 1).val = cc.val) :
    truncf (F := Ideal) .bf16 (extractStridedSlice S2048x2048 ![2048, 0] W slices_S4096x2048_S2048x2048_2048_0) bitsLt_bf16_f32 i
      = W (ix2 (hi l) cc) := by
  show extractStridedSlice S2048x2048 ![2048, 0] W slices_S4096x2048_S2048x2048_2048_0 i = _
  refine extractStridedSlice_apply ![2048, 0] W slices_S4096x2048_S2048x2048_2048_0 i (ix2 (hi l) cc) fun a => ?_
  ·
    match a with
    | ⟨0, _⟩ => show 2048 + l.val = 2048 + (i 0).val; omega
    | ⟨1, _⟩ => show cc.val = 0 + (i 1).val; omega

/-- A bias laid out as one row, at an index whose column is `cc`. -/
theorem row_apply (b : FVec Ideal S2048 .f32) (cc : Fin 2048) (i : S1x2048.Idx) (h1 : (i 1).val = cc.val) :
    shapeCast S1x2048 b shapeCasts_S2048_S1x2048 i = b (ix1 cc) := by
  have hi : i = ix2 (0 : Fin 1) cc := by
    funext a; apply Fin.ext
    match a with
    | ⟨0, _⟩ => have h0 : (i 0).val < 1 := (i 0).isLt; show (i 0).val = 0; omega
    | ⟨1, _⟩ => exact h1
  rw [hi]
  exact shapeCast_a_1a_apply b shapeCasts_S2048_S1x2048 (0 : Fin 1) cc

end Cert.LstmCell.Arrays

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KernelTile.lean ====
/-
  The kernel's body on one tile, entry by entry, at the ideal values.

  A grid point works on 512 rows of the batch and 256 units. It holds the 512 × 2048 tiles H and X of the hidden state
  and of the input (all their columns), for each gate the 2048 × 256 tiles of the weight rows that meet the hidden
  state and of those that meet the input, the gate's 1 × 256 bias tile, and the 512 × 256 tile of the cell state. At
  the ideal values a product into a zero accumulator is the plain sum over the contracted coordinate and a change of
  float format is the identity, so each gate's pre-activation at (p, q) of the tile is

      ( Σ_l H(p, l) · Wh(l, q)  +  Σ_l X(p, l) · Wx(l, q) )  +  b(0, q),

  and the two values the body stores are the LSTM cell's new cell state and new hidden state of the tile.
-/
import proofs.«182229_j63505386439276_1_alg».proof.Proof.Gen.KernelIdeal.Skeleton
import proofs.«182229_j63505386439276_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.LstmCell.Tile

open Idealize.ShloMosaic Idealize.ShloMosaic.ValueIdx Cert.KernelIdeal Cert.KernelIdeal.Gen

/-- A gate's pre-activation at `(p, q)` of a tile. -/
def gate (H X : FVec Ideal S512x2048 .bf16) (Wh Wx : FVec Ideal S2048x256 .bf16) (b : FVec Ideal S1x256 .f32)
    (p : Fin 512) (q : Fin 256) : EReal :=
  (∑ l : Fin 2048, H (ix2 p l) * Wh (ix2 l q) + ∑ l : Fin 2048, X (ix2 p l) * Wx (ix2 l q)) + b (ix2 (0 : Fin 1) q)

/-- The tile's new cell state at `(p, q)`. -/
def cell (H X : FVec Ideal S512x2048 .bf16) (Wfh Wfx Wih Wix Wch Wcx : FVec Ideal S2048x256 .bf16)
    (bf bi bc : FVec Ideal S1x256 .f32) (C : FVec Ideal S512x256 .f32) (p : Fin 512) (q : Fin 256) : EReal :=
  Ideal.logistic (gate H X Wfh Wfx bf p q) * C (ix2 p q)
    + Ideal.logistic (gate H X Wih Wix bi p q) * Ideal.tanh (gate H X Wch Wcx bc p q)

/-- The tile's new hidden state at `(p, q)`. -/
def hidden (H X : FVec Ideal S512x2048 .bf16) (Wfh Wfx Wih Wix Woh Wox Wch Wcx : FVec Ideal S2048x256 .bf16)
    (bf bi bo bc : FVec Ideal S1x256 .f32) (C : FVec Ideal S512x256 .f32) (p : Fin 512) (q : Fin 256) : EReal :=
  Ideal.logistic (gate H X Woh Wox bo p q) * Ideal.tanh (cell H X Wfh Wfx Wih Wix Wch Wcx bf bi bc C p q)

/-- The product of a 512 × 2048 tile with a 2048 × 256 tile into the zero accumulator, as the body spells it. -/
def prod (A : FVec Ideal S512x2048 .bf16) (B : FVec Ideal S2048x256 .bf16) : FVec Ideal S512x256 .f32 :=
  FloatOps.matmul (F := Ideal) dot_S512x2048_S2048x256_S512x256_1_0_0_1_n_n none
    (shapeCast S512x2048 A shapeCasts_S512x2048_S512x2048) (shapeCast S2048x256 B shapeCasts_S2048x256_S2048x256)
    (constant (F := Ideal) S512x256 .f32 0x00000000#32)

/-- A bias tile repeated down the 512 rows, as the body spells it. -/
def biasRows (b : FVec Ideal S1x256 .f32) : FVec Ideal S512x256 .f32 :=
  broadcastTo S512x256 (shapeCast S1x256 b shapeCasts_S1x256_S1x256) broadcasts_S1x256_S512x256

/-- The product read at `(p, q)`: row `p` of the first tile against column `q` of the second. -/
theorem prod_apply (A : FVec Ideal S512x2048 .bf16) (B : FVec Ideal S2048x256 .bf16) (p : Fin 512) (q : Fin 256) :
    prod A B (ix2 p q) = ∑ l : Fin 2048, A (ix2 p l) * B (ix2 l q) := by
  unfold prod
  rw [shapeCast_self, shapeCast_self]
  exact DenseLayer.matmul_rows_apply dot_S512x2048_S2048x256_S512x256_1_0_0_1_n_n_wf none A B p q

/-- The repeated bias tile read at `(p, q)`: the tile's one row at `q`. -/
theorem biasRows_apply (b : FVec Ideal S1x256 .f32) (p : Fin 512) (q : Fin 256) :
    biasRows b (ix2 p q) = b (ix2 (0 : Fin 1) q) := by
  unfold biasRows
  rw [shapeCast_self]
  exact broadcastTo_1b_ab_apply b broadcasts_S1x256_S512x256 p q

/-- The forget gate's pre-activation as the body computes it. -/
theorem pay5_apply (H X : FVec Ideal S512x2048 .bf16) (Wh Wx : FVec Ideal S2048x256 .bf16) (b : FVec Ideal S1x256 .f32)
    (p : Fin 512) (q : Fin 256) : k0_pay5 (F := Ideal) H X Wh Wx b (ix2 p q) = gate H X Wh Wx b p q := by
  show (prod H Wh (ix2 p q) + prod X Wx (ix2 p q)) + biasRows b (ix2 p q) = _
  rw [prod_apply, prod_apply, biasRows_apply]
  rfl

/-- The input gate's pre-activation as the body computes it. -/
theorem pay6_apply (H X : FVec Ideal S512x2048 .bf16) (Wh Wx : FVec Ideal S2048x256 .bf16) (b : FVec Ideal S1x256 .f32)
    (p : Fin 512) (q : Fin 256) : k0_pay6 (F := Ideal) H X Wh Wx b (ix2 p q) = gate H X Wh Wx b p q := by
  show (prod H Wh (ix2 p q) + prod X Wx (ix2 p q)) + biasRows b (ix2 p q) = _
  rw [prod_apply, prod_apply, biasRows_apply]
  rfl

/-- The value the body stores as the new cell state, read at `(p, q)`. -/
theorem pay1_apply (H X : FVec Ideal S512x2048 .bf16) (Wfh Wfx Wih Wix Wch Wcx : FVec Ideal S2048x256 .bf16)
    (bf bi bc : FVec Ideal S1x256 .f32) (C : FVec Ideal S512x256 .f32) (p : Fin 512) (q : Fin 256) :
    k0_pay1 (F := Ideal) (k0_pay3 H) (k0_pay4 X) (k0_pay5 H X Wfh Wfx bf) (k0_pay6 H X Wih Wix bi) Wch Wcx bc C (ix2 p q)
      = cell H X Wfh Wfx Wih Wix Wch Wcx bf bi bc C p q := by
  show Ideal.logistic (k0_pay5 (F := Ideal) H X Wfh Wfx bf (ix2 p q)) * C (ix2 p q)
      + Ideal.logistic (k0_pay6 (F := Ideal) H X Wih Wix bi (ix2 p q))
        * Ideal.tanh ((prod H Wch (ix2 p q) + prod X Wcx (ix2 p q)) + biasRows bc (ix2 p q)) = _
  rw [pay5_apply, pay6_apply, prod_apply, prod_apply, biasRows_apply]
  rfl

/-- The value the body stores as the new hidden state, read at `(p, q)`. -/
theorem pay2_apply (H X : FVec Ideal S512x2048 .bf16) (Wfh Wfx Wih Wix Woh Wox Wch Wcx : FVec Ideal S2048x256 .bf16)
    (bf bi bo bc : FVec Ideal S1x256 .f32) (C : FVec Ideal S512x256 .f32) (p : Fin 512) (q : Fin 256) :
    k0_pay2 (F := Ideal) (k0_pay3 H) (k0_pay4 X) (k0_pay5 H X Wfh Wfx bf) (k0_pay6 H X Wih Wix bi) (k0_pay7 H Woh) (k0_pay8 X Wox)
        bo Wch Wcx bc C (ix2 p q)
      = hidden H X Wfh Wfx Wih Wix Woh Wox Wch Wcx bf bi bo bc C p q := by
  show Ideal.logistic ((prod H Woh (ix2 p q) + prod X Wox (ix2 p q)) + biasRows bo (ix2 p q))
      * Ideal.tanh (k0_pay1 (F := Ideal) (k0_pay3 H) (k0_pay4 X) (k0_pay5 H X Wfh Wfx bf) (k0_pay6 H X Wih Wix bi) Wch Wcx bc C (ix2 p q)) = _
  rw [pay1_apply, prod_apply, prod_apply, biasRows_apply]
  rfl

end Cert.LstmCell.Tile

end
-- ==== Proof.KernelValue.lean ====
/-
  The kernel's two result arrays are the LSTM cell's new hidden state and new cell state.

  Point t of the 8 × 8 grid writes back, to each result array, the 512 × 256 tile at rows 512·a … and units 256·b …,
  where (a, b) is the tile's block index at t. Entry (p, q) of that tile is entry (512·a + p, 256·b + q) of the array.
  The tiles the body reads at t are the matching rows of the hidden state and the input, the matching columns of the
  weight halves and of the bias rows, and the matching tile of the cell state; so the tile's gate pre-activations are
  the cell's gate pre-activations at (512·a + p, 256·b + q), and what the body stores is the cell's new cell state and
  new hidden state there. The 64 tiles cover the arrays: row r, unit u lies in the tile with a = r / 512, b = u / 256.
-/
import proofs.«182229_j63505386439276_1_alg».proof.Proof.Gen.KernelIdeal.Value
import proofs.«182229_j63505386439276_1_alg».proof.Proof.KernelArrays
import proofs.«182229_j63505386439276_1_alg».proof.Proof.KernelTile
import Idealize.ShloMosaic.Lib.Pipeline.Value
import Idealize.ShloMosaic.Lib.Tactic

open scoped BigOperators

noncomputable section

namespace Cert.LstmCell.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.LstmCell

/-! ## A tile against the arrays, for any tile whose entries are the arrays' -/

section Generic
variable (H X : FVec Ideal S512x2048 .bf16) (h x : Mat) (R : Fin 4096) (Cc : Fin 2048) (p : Fin 512) (q : Fin 256)

/-- A tile's gate pre-activation at `(p, q)` is the cell's at `(R, Cc)` when row `p` of the hidden-state and input
    tiles is row `R` of the arrays, column `q` of the two weight tiles is column `Cc` of the two halves of the
    weight matrix, and entry `q` of the bias tile is entry `Cc` of the bias. -/
theorem gate_eq (Wh Wx : FVec Ideal S2048x256 .bf16) (b : FVec Ideal S1x256 .f32) (W : Mat) (bb : Row)
    (hH : ∀ l, H (ix2 p l) = h (ix2 R l)) (hX : ∀ l, X (ix2 p l) = x (ix2 R l))
    (hWh : ∀ l, Wh (ix2 l q) = W (ix2 (lo l) Cc)) (hWx : ∀ l, Wx (ix2 l q) = W (ix2 (hi l) Cc))
    (hb : b (ix2 (0 : Fin 1) q) = bb (ix1 Cc)) :
    Tile.gate H X Wh Wx b p q = gate h x W bb R Cc := by
  unfold Tile.gate gate
  rw [hb]
  congr 1
  congr 1
  · exact Finset.sum_congr rfl fun l _ => by rw [hH, hWh]
  · exact Finset.sum_congr rfl fun l _ => by rw [hX, hWx]

end Generic

variable (m : (ℓ : Loc nD τ sig) → Buf (Elt Ideal) ℓ) (ρ : Dev nD → PrngReg)

theorem hz : (![0, 0] : Fin 2 → Nat) = fun _ => 0 := funext fun a => by fin_cases a <;> rfl

/-! ## The windows' block indices, decided over the 64 points -/

/-- The hidden-state and input tiles sit at the output tile's row block and take every column; the cell-state tile
    and the other output tile sit at the output tile's block; the block indices run over 0 … 7. -/
theorem idx_rows : ∀ t : Fin cfg0.N,
    win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_14.index t (0 : Fin 2) = win0_16.index t (0 : Fin 2) ∧ win0_14.index t (1 : Fin 2) = win0_16.index t (1 : Fin 2)
    ∧ win0_15.index t (0 : Fin 2) = win0_16.index t (0 : Fin 2) ∧ win0_15.index t (1 : Fin 2) = win0_16.index t (1 : Fin 2)
    ∧ win0_16.index t (0 : Fin 2) ≤ 7 ∧ win0_16.index t (1 : Fin 2) ≤ 7 :=
  (by decide +kernel : ∀ t : Fin grid0.N, _)

/-- The weight tiles take every row and sit at the output tile's column block. -/
theorem idx_weights : ∀ t : Fin cfg0.N,
    (win0_2.index t (0 : Fin 2) = 0 ∧ win0_2.index t (1 : Fin 2) = win0_16.index t (1 : Fin 2))
    ∧ (win0_3.index t (0 : Fin 2) = 0 ∧ win0_3.index t (1 : Fin 2) = win0_16.index t (1 : Fin 2))
    ∧ (win0_4.index t (0 : Fin 2) = 0 ∧ win0_4.index t (1 : Fin 2) = win0_16.index t (1 : Fin 2))
    ∧ (win0_5.index t (0 : Fin 2) = 0 ∧ win0_5.index t (1 : Fin 2) = win0_16.index t (1 : Fin 2))
    ∧ (win0_6.index t (0 : Fin 2) = 0 ∧ win0_6.index t (1 : Fin 2) = win0_16.index t (1 : Fin 2))
    ∧ (win0_7.index t (0 : Fin 2) = 0 ∧ win0_7.index t (1 : Fin 2) = win0_16.index t (1 : Fin 2))
    ∧ (win0_8.index t (0 : Fin 2) = 0 ∧ win0_8.index t (1 : Fin 2) = win0_16.index t (1 : Fin 2))
    ∧ (win0_9.index t (0 : Fin 2) = 0 ∧ win0_9.index t (1 : Fin 2) = win0_16.index t (1 : Fin 2)) :=
  (by decide +kernel : ∀ t : Fin grid0.N, _)

/-- The bias tiles sit at the output tile's column block of the one row. -/
theorem idx_bias : ∀ t : Fin cfg0.N,
    (win0_10.index t (0 : Fin 2) = 0 ∧ win0_10.index t (1 : Fin 2) = win0_16.index t (1 : Fin 2))
    ∧ (win0_11.index t (0 : Fin 2) = 0 ∧ win0_11.index t (1 : Fin 2) = win0_16.index t (1 : Fin 2))
    ∧ (win0_12.index t (0 : Fin 2) = 0 ∧ win0_12.index t (1 : Fin 2) = win0_16.index t (1 : Fin 2))
    ∧ (win0_13.index t (0 : Fin 2) = 0 ∧ win0_13.index t (1 : Fin 2) = win0_16.index t (1 : Fin 2)) :=
  (by decide +kernel : ∀ t : Fin grid0.N, _)

/-- Every one of the 8 × 8 blocks is some point's. -/
theorem idx_onto : ∀ (a b : Fin 8), ∃ t : Fin cfg0.N, win0_16.index t = ![a.val, b.val] :=
  (by decide +kernel : ∀ (a b : Fin 8), ∃ t : Fin grid0.N, win0_16.index t = ![a.val, b.val])

/-- The batch row under row `p` of point `t`'s tiles. -/
def rowOf (t : Fin cfg0.N) (p : Fin 512) : Fin 4096 :=
  ⟨win0_16.index t (0 : Fin 2) * 512 + p.val, by have := (idx_rows t).2.2.2.2.2.2.2.2.1; have := p.isLt; omega⟩

/-- The unit under column `q` of point `t`'s tiles. -/
def colOf (t : Fin cfg0.N) (q : Fin 256) : Fin 2048 :=
  ⟨win0_16.index t (1 : Fin 2) * 256 + q.val, by have := (idx_rows t).2.2.2.2.2.2.2.2.2; have := q.isLt; omega⟩

/-! ## The input tiles at a point -/

/-- Row `p` of the hidden-state tile is row `rowOf t p` of the hidden state. -/
theorem hiddenTile_apply (c : Dev nD) (t : Fin cfg0.N) (p : Fin 512) (l : Fin 2048) :
    (iblk m c 0 t : FVec Ideal S512x2048 .bf16) (ix2 p l) = ((m ((c : Thread nD τ).loc main_arg1)) : Mat) (ix2 (rowOf t p) l) := by
  obtain ⟨e0, e1, -⟩ := idx_rows t
  unfold iblk
  rw [View.read_apply]
  show (V m c main_v0 : FVec Ideal S4096x2048 .bf16) _ = _
  rw [Arrays.hidden_eq]
  show ((m ((c : Thread nD τ).loc main_arg1)) : Mat) _ = _
  congr 1
  funext a
  apply Fin.ext
  match a with
  | ⟨0, _⟩ => show win0_0.index t (0 : Fin 2) * 512 + 1 * p.val = win0_16.index t (0 : Fin 2) * 512 + p.val; omega
  | ⟨1, _⟩ => show win0_0.index t (1 : Fin 2) * 2048 + 1 * l.val = l.val; omega

/-- Row `p` of the input tile is row `rowOf t p` of the input. -/
theorem inputTile_apply (c : Dev nD) (t : Fin cfg0.N) (p : Fin 512) (l : Fin 2048) :
    (iblk m c 1 t : FVec Ideal S512x2048 .bf16) (ix2 p l) = ((m ((c : Thread nD τ).loc main_arg0)) : Mat) (ix2 (rowOf t p) l) := by
  obtain ⟨-, -, e0, e1, -⟩ := idx_rows t
  unfold iblk
  rw [View.read_apply]
  show (V m c main_v1 : FVec Ideal S4096x2048 .bf16) _ = _
  rw [Arrays.input_eq]
  show ((m ((c : Thread nD τ).loc main_arg0)) : Mat) _ = _
  congr 1
  funext a
  apply Fin.ext
  match a with
  | ⟨0, _⟩ => show win0_1.index t (0 : Fin 2) * 512 + 1 * p.val = win0_16.index t (0 : Fin 2) * 512 + p.val; omega
  | ⟨1, _⟩ => show win0_1.index t (1 : Fin 2) * 2048 + 1 * l.val = l.val; omega

/-- The cell-state tile at `(p, q)` is the cell state at `(rowOf t p, colOf t q)`. -/
theorem cellTile_apply (c : Dev nD) (t : Fin cfg0.N) (p : Fin 512) (q : Fin 256) :
    (iblk m c 14 t : FVec Ideal S512x256 .f32) (ix2 p q) = ((m ((c : Thread nD τ).loc main_arg2)) : Mat) (ix2 (rowOf t p) (colOf t q)) := by
  obtain ⟨-, -, -, -, e0, e1, -⟩ := idx_rows t
  unfold iblk
  rw [View.read_apply]
  show (V m c main_arg2 : FVec Ideal S4096x2048 .f32) _ = _
  rw [V_main_arg2]
  show ((m ((c : Thread nD τ).loc main_arg2)) : Mat) _ = _
  congr 1
  funext a
  apply Fin.ext
  match a with
  | ⟨0, _⟩ => show win0_14.index t (0 : Fin 2) * 512 + 1 * p.val = win0_16.index t (0 : Fin 2) * 512 + p.val; omega
  | ⟨1, _⟩ => show win0_14.index t (1 : Fin 2) * 256 + 1 * q.val = win0_16.index t (1 : Fin 2) * 256 + q.val; omega

/-- Column `q` of the forget gate's first weight tile is column `colOf t q` of the first 2048 rows of its matrix. -/
theorem wfhTile_apply (c : Dev nD) (t : Fin cfg0.N) (l : Fin 2048) (q : Fin 256) :
    (iblk m c 2 t : FVec Ideal S2048x256 .bf16) (ix2 l q) = ((m ((c : Thread nD τ).loc main_arg3)) : Mat) (ix2 (lo l) (colOf t q)) := by
  obtain ⟨⟨e0, e1⟩, -⟩ := idx_weights t
  unfold iblk
  rw [View.read_apply]
  show (V m c main_v3 : FVec Ideal S2048x2048 .bf16) _ = _
  rw [Arrays.wfh_eq]
  refine Arrays.lo_apply _ l (colOf t q) _ ?_ ?_
  · show win0_2.index t (0 : Fin 2) * 2048 + 1 * l.val = l.val; omega
  · show win0_2.index t (1 : Fin 2) * 256 + 1 * q.val = win0_16.index t (1 : Fin 2) * 256 + q.val; omega

/-- Column `q` of the forget gate's second weight tile is column `colOf t q` of the last 2048 rows of its matrix. -/
theorem wfxTile_apply (c : Dev nD) (t : Fin cfg0.N) (l : Fin 2048) (q : Fin 256) :
    (iblk m c 3 t : FVec Ideal S2048x256 .bf16) (ix2 l q) = ((m ((c : Thread nD τ).loc main_arg3)) : Mat) (ix2 (hi l) (colOf t q)) := by
  obtain ⟨-, ⟨e0, e1⟩, -⟩ := idx_weights t
  unfold iblk
  rw [View.read_apply]
  show (V m c main_v5 : FVec Ideal S2048x2048 .bf16) _ = _
  rw [Arrays.wfx_eq]
  refine Arrays.hi_apply _ l (colOf t q) _ ?_ ?_
  · show win0_3.index t (0 : Fin 2) * 2048 + 1 * l.val = l.val; omega
  · show win0_3.index t (1 : Fin 2) * 256 + 1 * q.val = win0_16.index t (1 : Fin 2) * 256 + q.val; omega

/-- The input gate's first weight tile. -/
theorem wihTile_apply (c : Dev nD) (t : Fin cfg0.N) (l : Fin 2048) (q : Fin 256) :
    (iblk m c 4 t : FVec Ideal S2048x256 .bf16) (ix2 l q) = ((m ((c : Thread nD τ).loc main_arg5)) : Mat) (ix2 (lo l) (colOf t q)) := by
  obtain ⟨-, -, ⟨e0, e1⟩, -⟩ := idx_weights t
  unfold iblk
  rw [View.read_apply]
  show (V m c main_v7 : FVec Ideal S2048x2048 .bf16) _ = _
  rw [Arrays.wih_eq]
  refine Arrays.lo_apply _ l (colOf t q) _ ?_ ?_
  · show win0_4.index t (0 : Fin 2) * 2048 + 1 * l.val = l.val; omega
  · show win0_4.index t (1 : Fin 2) * 256 + 1 * q.val = win0_16.index t (1 : Fin 2) * 256 + q.val; omega

/-- The input gate's second weight tile. -/
theorem wixTile_apply (c : Dev nD) (t : Fin cfg0.N) (l : Fin 2048) (q : Fin 256) :
    (iblk m c 5 t : FVec Ideal S2048x256 .bf16) (ix2 l q) = ((m ((c : Thread nD τ).loc main_arg5)) : Mat) (ix2 (hi l) (colOf t q)) := by
  obtain ⟨-, -, -, ⟨e0, e1⟩, -⟩ := idx_weights t
  unfold iblk
  rw [View.read_apply]
  show (V m c main_v9 : FVec Ideal S2048x2048 .bf16) _ = _
  rw [Arrays.wix_eq]
  refine Arrays.hi_apply _ l (colOf t q) _ ?_ ?_
  · show win0_5.index t (0 : Fin 2) * 2048 + 1 * l.val = l.val; omega
  · show win0_5.index t (1 : Fin 2) * 256 + 1 * q.val = win0_16.index t (1 : Fin 2) * 256 + q.val; omega

/-- The output gate's first weight tile. -/
theorem wohTile_apply (c : Dev nD) (t : Fin cfg0.N) (l : Fin 2048) (q : Fin 256) :
    (iblk m c 6 t : FVec Ideal S2048x256 .bf16) (ix2 l q) = ((m ((c : Thread nD τ).loc main_arg7)) : Mat) (ix2 (lo l) (colOf t q)) := by
  obtain ⟨-, -, -, -, ⟨e0, e1⟩, -⟩ := idx_weights t
  unfold iblk
  rw [View.read_apply]
  show (V m c main_v11 : FVec Ideal S2048x2048 .bf16) _ = _
  rw [Arrays.woh_eq]
  refine Arrays.lo_apply _ l (colOf t q) _ ?_ ?_
  · show win0_6.index t (0 : Fin 2) * 2048 + 1 * l.val = l.val; omega
  · show win0_6.index t (1 : Fin 2) * 256 + 1 * q.val = win0_16.index t (1 : Fin 2) * 256 + q.val; omega

/-- The output gate's second weight tile. -/
theorem woxTile_apply (c : Dev nD) (t : Fin cfg0.N) (l : Fin 2048) (q : Fin 256) :
    (iblk m c 7 t : FVec Ideal S2048x256 .bf16) (ix2 l q) = ((m ((c : Thread nD τ).loc main_arg7)) : Mat) (ix2 (hi l) (colOf t q)) := by
  obtain ⟨-, -, -, -, -, ⟨e0, e1⟩, -⟩ := idx_weights t
  unfold iblk
  rw [View.read_apply]
  show (V m c main_v13 : FVec Ideal S2048x2048 .bf16) _ = _
  rw [Arrays.wox_eq]
  refine Arrays.hi_apply _ l (colOf t q) _ ?_ ?_
  · show win0_7.index t (0 : Fin 2) * 2048 + 1 * l.val = l.val; omega
  · show win0_7.index t (1 : Fin 2) * 256 + 1 * q.val = win0_16.index t (1 : Fin 2) * 256 + q.val; omega

/-- The candidate's first weight tile. -/
theorem wchTile_apply (c : Dev nD) (t : Fin cfg0.N) (l : Fin 2048) (q : Fin 256) :
    (iblk m c 8 t : FVec Ideal S2048x256 .bf16) (ix2 l q) = ((m ((c : Thread nD τ).loc main_arg9)) : Mat) (ix2 (lo l) (colOf t q)) := by
  obtain ⟨-, -, -, -, -, -, ⟨e0, e1⟩, -⟩ := idx_weights t
  unfold iblk
  rw [View.read_apply]
  show (V m c main_v15 : FVec Ideal S2048x2048 .bf16) _ = _
  rw [Arrays.wch_eq]
  refine Arrays.lo_apply _ l (colOf t q) _ ?_ ?_
  · show win0_8.index t (0 : Fin 2) * 2048 + 1 * l.val = l.val; omega
  · show win0_8.index t (1 : Fin 2) * 256 + 1 * q.val = win0_16.index t (1 : Fin 2) * 256 + q.val; omega

/-- The candidate's second weight tile. -/
theorem wcxTile_apply (c : Dev nD) (t : Fin cfg0.N) (l : Fin 2048) (q : Fin 256) :
    (iblk m c 9 t : FVec Ideal S2048x256 .bf16) (ix2 l q) = ((m ((c : Thread nD τ).loc main_arg9)) : Mat) (ix2 (hi l) (colOf t q)) := by
  obtain ⟨-, -, -, -, -, -, -, e0, e1⟩ := idx_weights t
  unfold iblk
  rw [View.read_apply]
  show (V m c main_v17 : FVec Ideal S2048x2048 .bf16) _ = _
  rw [Arrays.wcx_eq]
  refine Arrays.hi_apply _ l (colOf t q) _ ?_ ?_
  · show win0_9.index t (0 : Fin 2) * 2048 + 1 * l.val = l.val; omega
  · show win0_9.index t (1 : Fin 2) * 256 + 1 * q.val = win0_16.index t (1 : Fin 2) * 256 + q.val; omega

/-- Entry `q` of the forget gate's bias tile is entry `colOf t q` of its bias. -/
theorem bfTile_apply (c : Dev nD) (t : Fin cfg0.N) (q : Fin 256) :
    (iblk m c 10 t : FVec Ideal S1x256 .f32) (ix2 (0 : Fin 1) q) = ((m ((c : Thread nD τ).loc main_arg4)) : Row) (ix1 (colOf t q)) := by
  obtain ⟨⟨e0, e1⟩, -⟩ := idx_bias t
  unfold iblk
  rw [View.read_apply]
  show (V m c main_v18 : FVec Ideal S1x2048 .f32) _ = _
  rw [Arrays.bf_eq]
  refine Arrays.row_apply _ (colOf t q) _ ?_
  show win0_10.index t (1 : Fin 2) * 256 + 1 * q.val = win0_16.index t (1 : Fin 2) * 256 + q.val; omega

/-- The input gate's bias tile. -/
theorem biTile_apply (c : Dev nD) (t : Fin cfg0.N) (q : Fin 256) :
    (iblk m c 11 t : FVec Ideal S1x256 .f32) (ix2 (0 : Fin 1) q) = ((m ((c : Thread nD τ).loc main_arg6)) : Row) (ix1 (colOf t q)) := by
  obtain ⟨-, ⟨e0, e1⟩, -⟩ := idx_bias t
  unfold iblk
  rw [View.read_apply]
  show (V m c main_v19 : FVec Ideal S1x2048 .f32) _ = _
  rw [Arrays.bi_eq]
  refine Arrays.row_apply _ (colOf t q) _ ?_
  show win0_11.index t (1 : Fin 2) * 256 + 1 * q.val = win0_16.index t (1 : Fin 2) * 256 + q.val; omega

/-- The output gate's bias tile. -/
theorem boTile_apply (c : Dev nD) (t : Fin cfg0.N) (q : Fin 256) :
    (iblk m c 12 t : FVec Ideal S1x256 .f32) (ix2 (0 : Fin 1) q) = ((m ((c : Thread nD τ).loc main_arg8)) : Row) (ix1 (colOf t q)) := by
  obtain ⟨-, -, ⟨e0, e1⟩, -⟩ := idx_bias t
  unfold iblk
  rw [View.read_apply]
  show (V m c main_v20 : FVec Ideal S1x2048 .f32) _ = _
  rw [Arrays.bo_eq]
  refine Arrays.row_apply _ (colOf t q) _ ?_
  show win0_12.index t (1 : Fin 2) * 256 + 1 * q.val = win0_16.index t (1 : Fin 2) * 256 + q.val; omega

/-- The candidate's bias tile. -/
theorem bcTile_apply (c : Dev nD) (t : Fin cfg0.N) (q : Fin 256) :
    (iblk m c 13 t : FVec Ideal S1x256 .f32) (ix2 (0 : Fin 1) q) = ((m ((c : Thread nD τ).loc main_arg10)) : Row) (ix1 (colOf t q)) := by
  obtain ⟨-, -, -, e0, e1⟩ := idx_bias t
  unfold iblk
  rw [View.read_apply]
  show (V m c main_v21 : FVec Ideal S1x2048 .f32) _ = _
  rw [Arrays.bc_eq]
  refine Arrays.row_apply _ (colOf t q) _ ?_
  show win0_13.index t (1 : Fin 2) * 256 + 1 * q.val = win0_16.index t (1 : Fin 2) * 256 + q.val; omega

/-! ## The gates at a point -/

/-- The forget gate's pre-activation on point `t`'s tiles is the cell's at the entry under `(p, q)`. -/
theorem gateF (c : Dev nD) (t : Fin cfg0.N) (p : Fin 512) (q : Fin 256) :
    Tile.gate (iblk m c 0 t) (iblk m c 1 t) (iblk m c 2 t) (iblk m c 3 t) (iblk m c 10 t) p q
      = gate (m ((c : Thread nD τ).loc main_arg1)) (m ((c : Thread nD τ).loc main_arg0)) (m ((c : Thread nD τ).loc main_arg3)) (m ((c : Thread nD τ).loc main_arg4)) (rowOf t p) (colOf t q) :=
  gate_eq (iblk m c 0 t) (iblk m c 1 t) (m ((c : Thread nD τ).loc main_arg1)) (m ((c : Thread nD τ).loc main_arg0)) (rowOf t p) (colOf t q) p q (iblk m c 2 t) (iblk m c 3 t) (iblk m c 10 t)
    (m ((c : Thread nD τ).loc main_arg3)) (m ((c : Thread nD τ).loc main_arg4)) (hiddenTile_apply m c t p) (inputTile_apply m c t p) (fun l => wfhTile_apply m c t l q)
    (fun l => wfxTile_apply m c t l q) (bfTile_apply m c t q)

/-- The input gate's. -/
theorem gateI (c : Dev nD) (t : Fin cfg0.N) (p : Fin 512) (q : Fin 256) :
    Tile.gate (iblk m c 0 t) (iblk m c 1 t) (iblk m c 4 t) (iblk m c 5 t) (iblk m c 11 t) p q
      = gate (m ((c : Thread nD τ).loc main_arg1)) (m ((c : Thread nD τ).loc main_arg0)) (m ((c : Thread nD τ).loc main_arg5)) (m ((c : Thread nD τ).loc main_arg6)) (rowOf t p) (colOf t q) :=
  gate_eq (iblk m c 0 t) (iblk m c 1 t) (m ((c : Thread nD τ).loc main_arg1)) (m ((c : Thread nD τ).loc main_arg0)) (rowOf t p) (colOf t q) p q (iblk m c 4 t) (iblk m c 5 t) (iblk m c 11 t)
    (m ((c : Thread nD τ).loc main_arg5)) (m ((c : Thread nD τ).loc main_arg6)) (hiddenTile_apply m c t p) (inputTile_apply m c t p) (fun l => wihTile_apply m c t l q)
    (fun l => wixTile_apply m c t l q) (biTile_apply m c t q)

/-- The output gate's. -/
theorem gateO (c : Dev nD) (t : Fin cfg0.N) (p : Fin 512) (q : Fin 256) :
    Tile.gate (iblk m c 0 t) (iblk m c 1 t) (iblk m c 6 t) (iblk m c 7 t) (iblk m c 12 t) p q
      = gate (m ((c : Thread nD τ).loc main_arg1)) (m ((c : Thread nD τ).loc main_arg0)) (m ((c : Thread nD τ).loc main_arg7)) (m ((c : Thread nD τ).loc main_arg8)) (rowOf t p) (colOf t q) :=
  gate_eq (iblk m c 0 t) (iblk m c 1 t) (m ((c : Thread nD τ).loc main_arg1)) (m ((c : Thread nD τ).loc main_arg0)) (rowOf t p) (colOf t q) p q (iblk m c 6 t) (iblk m c 7 t) (iblk m c 12 t)
    (m ((c : Thread nD τ).loc main_arg7)) (m ((c : Thread nD τ).loc main_arg8)) (hiddenTile_apply m c t p) (inputTile_apply m c t p) (fun l => wohTile_apply m c t l q)
    (fun l => woxTile_apply m c t l q) (boTile_apply m c t q)

/-- The candidate's. -/
theorem gateC (c : Dev nD) (t : Fin cfg0.N) (p : Fin 512) (q : Fin 256) :
    Tile.gate (iblk m c 0 t) (iblk m c 1 t) (iblk m c 8 t) (iblk m c 9 t) (iblk m c 13 t) p q
      = gate (m ((c : Thread nD τ).loc main_arg1)) (m ((c : Thread nD τ).loc main_arg0)) (m ((c : Thread nD τ).loc main_arg9)) (m ((c : Thread nD τ).loc main_arg10)) (rowOf t p) (colOf t q) :=
  gate_eq (iblk m c 0 t) (iblk m c 1 t) (m ((c : Thread nD τ).loc main_arg1)) (m ((c : Thread nD τ).loc main_arg0)) (rowOf t p) (colOf t q) p q (iblk m c 8 t) (iblk m c 9 t) (iblk m c 13 t)
    (m ((c : Thread nD τ).loc main_arg9)) (m ((c : Thread nD τ).loc main_arg10)) (hiddenTile_apply m c t p) (inputTile_apply m c t p) (fun l => wchTile_apply m c t l q)
    (fun l => wcxTile_apply m c t l q) (bcTile_apply m c t q)

/-- The tile's new cell state at `(p, q)` is the cell's at the entry under it. -/
theorem cell_at (c : Dev nD) (t : Fin cfg0.N) (p : Fin 512) (q : Fin 256) :
    Tile.cell (iblk m c 0 t) (iblk m c 1 t) (iblk m c 2 t) (iblk m c 3 t) (iblk m c 4 t) (iblk m c 5 t) (iblk m c 8 t) (iblk m c 9 t)
        (iblk m c 10 t) (iblk m c 11 t) (iblk m c 13 t) (iblk m c 14 t) p q
      = nextCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (ix2 (rowOf t p) (colOf t q)) := by
  unfold Tile.cell nextCell
  rw [gateF, gateI, gateC, cellTile_apply]

/-- The tile's new hidden state at `(p, q)` is the cell's at the entry under it. -/
theorem hidden_at (c : Dev nD) (t : Fin cfg0.N) (p : Fin 512) (q : Fin 256) :
    Tile.hidden (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) p q
      = nextHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (rowOf t p) (colOf t q)) := by
  unfold Tile.hidden nextHidden
  rw [gateO, cell_at]

/-! ## What a point writes back, and the arrays after the run -/

/-- The array entry under `(j 0, j 1)` of point `t`'s new-cell-state tile. -/
theorem emb16 (t : Fin cfg0.N) (j : S512x256.Idx) :
    ((cfg0.win 16).blk t).view.emb j = ix2 (rowOf t (j 0)) (colOf t (j 1)) := by
  funext a
  apply Fin.ext
  match a with
  | ⟨0, _⟩ => show win0_16.index t (0 : Fin 2) * 512 + 1 * (j 0).val = win0_16.index t (0 : Fin 2) * 512 + (j 0).val; omega
  | ⟨1, _⟩ => show win0_16.index t (1 : Fin 2) * 256 + 1 * (j 1).val = win0_16.index t (1 : Fin 2) * 256 + (j 1).val; omega

/-- The array entry under `(j 0, j 1)` of point `t`'s new-hidden-state tile: the same rows and units. -/
theorem emb15 (t : Fin cfg0.N) (j : S512x256.Idx) :
    ((cfg0.win 15).blk t).view.emb j = ix2 (rowOf t (j 0)) (colOf t (j 1)) := by
  obtain ⟨-, -, -, -, -, -, e0, e1, -⟩ := idx_rows t
  funext a
  apply Fin.ext
  match a with
  | ⟨0, _⟩ => show win0_15.index t (0 : Fin 2) * 512 + 1 * (j 0).val = win0_16.index t (0 : Fin 2) * 512 + (j 0).val; omega
  | ⟨1, _⟩ => show win0_15.index t (1 : Fin 2) * 256 + 1 * (j 1).val = win0_16.index t (1 : Fin 2) * 256 + (j 1).val; omega

/-- Point `t` writes back to the second result array the new cell state's tile there. -/
theorem flushed16_eq (c : Dev nD) (t : Fin cfg0.N) :
    (dats m 0 c).flushed 16 t = ((cfg0.win 16).blk t).view.read (Elt Ideal) (nextCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  rw [Value.flushed16]
  unfold out0_16
  rw [View.canon_unit_zero hz]
  simp only [View.ld_unit_zero (S := S512x2048) hz, View.ld_unit_zero (S := S2048x256) hz, View.ld_unit_zero (S := S1x256) hz,
    View.ld_unit_zero (S := S512x256) hz]
  refine funext fun (j : S512x256.Idx) => ?_
  show k0_pay1 (F := Ideal) (k0_pay3 (iblk m c 0 t)) (k0_pay4 (iblk m c 1 t)) (k0_pay5 (iblk m c 0 t) (iblk m c 1 t) (iblk m c 2 t) (iblk m c 3 t) (iblk m c 10 t))
      (k0_pay6 (iblk m c 0 t) (iblk m c 1 t) (iblk m c 4 t) (iblk m c 5 t) (iblk m c 11 t)) (iblk m c 8 t) (iblk m c 9 t) (iblk m c 13 t) (iblk m c 14 t) j
    = nextCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (((cfg0.win 16).blk t).view.emb j)
  rw [emb16, eq_ix2 j]
  exact (Tile.pay1_apply (iblk m c 0 t) (iblk m c 1 t) (iblk m c 2 t) (iblk m c 3 t) (iblk m c 4 t) (iblk m c 5 t) (iblk m c 8 t) (iblk m c 9 t)
    (iblk m c 10 t) (iblk m c 11 t) (iblk m c 13 t) (iblk m c 14 t) (j 0) (j 1)).trans (cell_at m c t (j 0) (j 1))

/-- Point `t` writes back to the first result array the new hidden state's tile there. -/
theorem flushed15_eq (c : Dev nD) (t : Fin cfg0.N) :
    (dats m 0 c).flushed 15 t = ((cfg0.win 15).blk t).view.read (Elt Ideal) (nextHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed15]
  unfold out0_15
  rw [View.canon_unit_zero hz]
  simp only [View.ld_unit_zero (S := S512x2048) hz, View.ld_unit_zero (S := S2048x256) hz, View.ld_unit_zero (S := S1x256) hz,
    View.ld_unit_zero (S := S512x256) hz]
  refine funext fun (j : S512x256.Idx) => ?_
  show k0_pay2 (F := Ideal) (k0_pay3 (iblk m c 0 t)) (k0_pay4 (iblk m c 1 t)) (k0_pay5 (iblk m c 0 t) (iblk m c 1 t) (iblk m c 2 t) (iblk m c 3 t) (iblk m c 10 t))
      (k0_pay6 (iblk m c 0 t) (iblk m c 1 t) (iblk m c 4 t) (iblk m c 5 t) (iblk m c 11 t)) (k0_pay7 (iblk m c 0 t) (iblk m c 6 t)) (k0_pay8 (iblk m c 1 t) (iblk m c 7 t))
      (iblk m c 12 t) (iblk m c 8 t) (iblk m c 9 t) (iblk m c 13 t) (iblk m c 14 t) j
    = nextHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 15).blk t).view.emb j)
  rw [emb15, eq_ix2 j]
  exact (Tile.pay2_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (j 0) (j 1)).trans
    (hidden_at m c t (j 0) (j 1))

/-- An entry of the second result array is in point `t`'s tile iff each coordinate is in the tile's range. -/
theorem mem_blk16 (t : Fin cfg0.N) (i : S4096x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v22_1).slice (win0_16.rect t)).set ↔ _
  rw [View.set_slice_whole, Rect.mem_set_unit]
  exact Iff.rfl

/-- The same for the first result array. -/
theorem mem_blk15 (t : Fin cfg0.N) (i : S4096x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v22_0).slice (win0_15.rect t)).set ↔ _
  rw [View.set_slice_whole, Rect.mem_set_unit]
  exact Iff.rfl

/-- Every entry of the second result array is in some point's tile: row `r`, unit `u` in block `(r / 512, u / 256)`. -/
theorem cover16 (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-- And of the first. -/
theorem cover15 (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  obtain ⟨-, -, -, -, -, -, e0, e1, -⟩ := idx_rows t
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- After the run the second result array is the new cell state. -/
theorem final16 (c : Dev nD) : (dats m 0 c).arrAt 16 cfg0.N = nextCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (dats m 0 c).arrAt_eq_of_cover 16 (nextCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (fun t _ => flushed16_eq m c t) cover16

/-- After the run the first result array is the new hidden state. -/
theorem final15 (c : Dev nD) : (dats m 0 c).arrAt 15 cfg0.N = nextHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 15 (nextHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed15_eq m c t) cover15

/-- The kernel's run: it terminates with the two result arrays at the cell's new hidden state and new cell state of the
    arguments, and the arguments unchanged. -/
theorem run : θ_run defs (onTc (τ := τ) (main (F := Ideal))) ⟨m, fun _ => 0, ρ⟩ fun r => ∀ c : Dev nD,
      r.2.mem ((c : Thread nD τ).loc main_v22_0) = nextHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v22_1) = nextCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final15 m c), (h c).2.1.trans (final16 m c), (h c).2.2⟩)
    (Value.run_blocks m ρ)

end Cert.LstmCell.Kernel

end
-- ==== Proof.LibConcatFour.lean ====
/-
  Four pieces of one shape laid side by side, read at an index.

  Four matrices of n rows and w columns joined along the columns make a matrix of n rows whose column g·w + j is column j of
  piece g; four vectors of w entries joined end to end make a vector whose entry g·w + j is entry j of piece g.
-/
import Idealize.ShloMosaic.Lib.Pipeline.Value
import Idealize.ShloMosaic.Lib.ValueIdx

noncomputable section

namespace Idealize.ShloMosaic.ConcatFour

open Idealize.ShloMosaic Idealize.ShloMosaic.ValueIdx

variable {α : Type}

/-- Four `[n, w]` matrices joined along axis 1: at row `r`, column `g·w + j`, the result reads piece `g` at `(r, j)`. -/
theorem cols_apply {n w W : ℕ} (x0 x1 x2 x3 : (⟨2, ![n, w]⟩ : Shape).Idx → α)
    (h : Shape.Concatenates [(⟨2, ![n, w]⟩ : Shape), ⟨2, ![n, w]⟩, ⟨2, ![n, w]⟩, ⟨2, ![n, w]⟩] ⟨2, ![n, W]⟩ 1)
    (i : (⟨2, ![n, W]⟩ : Shape).Idx) (g : Fin 4) (r : Fin n) (j : Fin w)
    (hr : (i 0).val = r.val) (hj : (i 1).val = g.val * w + j.val) :
    concatenate ⟨2, ![n, W]⟩ 1 [⟨⟨2, ![n, w]⟩, x0⟩, ⟨⟨2, ![n, w]⟩, x1⟩, ⟨⟨2, ![n, w]⟩, x2⟩, ⟨⟨2, ![n, w]⟩, x3⟩] h i
      = (![x0, x1, x2, x3] g) (ix2 r j) := by
  have hi : ∀ b : Fin 2, b ≠ 1 → ((ix2 r j : (⟨2, ![n, w]⟩ : Shape).Idx) b).val = (i b).val := fun b hb => by
    match b with
    | ⟨0, _⟩ => exact hr.symm
    | ⟨1, _⟩ => exact absurd rfl hb
  let xs : List ((s : Shape) × (s.Idx → α)) :=
    [⟨⟨2, ![n, w]⟩, x0⟩, ⟨⟨2, ![n, w]⟩, x1⟩, ⟨⟨2, ![n, w]⟩, x2⟩, ⟨⟨2, ![n, w]⟩, x3⟩]
  match g, hj with
  | ⟨0, _⟩, hj =>
    exact concatenate_apply_piece (t := ⟨2, ![n, W]⟩) 1 xs h i 0 (show 0 < 4 by omega) _ x0 rfl rfl 0 rfl (ix2 r j) hi
      (by show 0 + j.val = (i 1).val; rw [hj]; show 0 + j.val = 0 * w + j.val; omega)
  | ⟨1, _⟩, hj =>
    exact concatenate_apply_piece (t := ⟨2, ![n, W]⟩) 1 xs h i 1 (show 1 < 4 by omega) _ x1 rfl rfl (w + 0) rfl (ix2 r j) hi
      (by show w + 0 + j.val = (i 1).val; rw [hj]; show w + 0 + j.val = 1 * w + j.val; omega)
  | ⟨2, _⟩, hj =>
    exact concatenate_apply_piece (t := ⟨2, ![n, W]⟩) 1 xs h i 2 (show 2 < 4 by omega) _ x2 rfl rfl (w + (w + 0)) rfl (ix2 r j) hi
      (by show w + (w + 0) + j.val = (i 1).val; rw [hj]; show w + (w + 0) + j.val = 2 * w + j.val; omega)
  | ⟨3, _⟩, hj =>
    exact concatenate_apply_piece (t := ⟨2, ![n, W]⟩) 1 xs h i 3 (show 3 < 4 by omega) _ x3 rfl rfl (w + (w + (w + 0))) rfl (ix2 r j) hi
      (by show w + (w + (w + 0)) + j.val = (i 1).val; rw [hj]; show w + (w + (w + 0)) + j.val = 3 * w + j.val; omega)

/-- Four `[w]` vectors joined end to end: at entry `g·w + j` the result reads piece `g` at `j`. -/
theorem vecs_apply {w W : ℕ} (x0 x1 x2 x3 : (⟨1, ![w]⟩ : Shape).Idx → α)
    (h : Shape.Concatenates [(⟨1, ![w]⟩ : Shape), ⟨1, ![w]⟩, ⟨1, ![w]⟩, ⟨1, ![w]⟩] ⟨1, ![W]⟩ 0)
    (i : (⟨1, ![W]⟩ : Shape).Idx) (g : Fin 4) (j : Fin w) (hj : (i 0).val = g.val * w + j.val) :
    concatenate ⟨1, ![W]⟩ 0 [⟨⟨1, ![w]⟩, x0⟩, ⟨⟨1, ![w]⟩, x1⟩, ⟨⟨1, ![w]⟩, x2⟩, ⟨⟨1, ![w]⟩, x3⟩] h i
      = (![x0, x1, x2, x3] g) (ix1 j) := by
  have hi : ∀ b : Fin 1, b ≠ 0 → ((ix1 j : (⟨1, ![w]⟩ : Shape).Idx) b).val = (i b).val := fun b hb => by
    match b with
    | ⟨0, _⟩ => exact absurd rfl hb
  let xs : List ((s : Shape) × (s.Idx → α)) :=
    [⟨⟨1, ![w]⟩, x0⟩, ⟨⟨1, ![w]⟩, x1⟩, ⟨⟨1, ![w]⟩, x2⟩, ⟨⟨1, ![w]⟩, x3⟩]
  match g, hj with
  | ⟨0, _⟩, hj =>
    exact concatenate_apply_piece (t := ⟨1, ![W]⟩) 0 xs h i 0 (show 0 < 4 by omega) _ x0 rfl rfl 0 rfl (ix1 j) hi
      (by show 0 + j.val = (i 0).val; rw [hj]; show 0 + j.val = 0 * w + j.val; omega)
  | ⟨1, _⟩, hj =>
    exact concatenate_apply_piece (t := ⟨1, ![W]⟩) 0 xs h i 1 (show 1 < 4 by omega) _ x1 rfl rfl (w + 0) rfl (ix1 j) hi
      (by show w + 0 + j.val = (i 0).val; rw [hj]; show w + 0 + j.val = 1 * w + j.val; omega)
  | ⟨2, _⟩, hj =>
    exact concatenate_apply_piece (t := ⟨1, ![W]⟩) 0 xs h i 2 (show 2 < 4 by omega) _ x2 rfl rfl (w + (w + 0)) rfl (ix1 j) hi
      (by show w + (w + 0) + j.val = (i 0).val; rw [hj]; show w + (w + 0) + j.val = 2 * w + j.val; omega)
  | ⟨3, _⟩, hj =>
    exact concatenate_apply_piece (t := ⟨1, ![W]⟩) 0 xs h i 3 (show 3 < 4 by omega) _ x3 rfl rfl (w + (w + (w + 0))) rfl (ix1 j) hi
      (by show w + (w + (w + 0)) + j.val = (i 0).val; rw [hj]; show w + (w + (w + 0)) + j.val = 3 * w + j.val; omega)

end Idealize.ShloMosaic.ConcatFour

end
-- ==== Proof.LibConcatCols.lean ====
/-
  Two matrices side by side, read at an index, and a row of the pair against a matrix.

  An n×a matrix X followed along the columns by an n×b matrix Y is an n×(a+b) matrix whose column q is column q of X
  while q < a and column q − a of Y from there on. A sum over the a + b columns therefore splits into the sum over
  the first a and the sum over the last b, and the product of a row of the pair with a matrix W of a + b rows is the
  product of X's row with the first a rows of W plus the product of Y's row with the last b rows of W. The last
  statement needs only that addition is commutative and associative, so it holds on the extended reals with no
  finiteness assumed.
-/
import Idealize.ShloMosaic.Lib.Pipeline.Value
import Idealize.ShloMosaic.Lib.ValueIdx
import Mathlib.Algebra.BigOperators.Fin

open scoped BigOperators

noncomputable section

namespace Idealize.ShloMosaic.ConcatCols

open Idealize.ShloMosaic Idealize.ShloMosaic.ValueIdx

/-! ## The pair read at an index -/

section Read
variable {α : Type} {n a b c : ℕ}

/-- Column `q` of the pair, where `q` is a column `p` of the first matrix. -/
theorem cols_left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (r : Fin n) (q : Fin c) (p : Fin a) (hp : q.val = p.val) :
    concatenate ⟨2, ![n, c]⟩ 1 [⟨⟨2, ![n, a]⟩, x⟩, ⟨⟨2, ![n, b]⟩, y⟩] h (ix2 r q) = x (ix2 r p) :=
  concatenate_pair_apply_left (t := ⟨2, ![n, c]⟩) (s₁ := ⟨2, ![n, a]⟩) (s₂ := ⟨2, ![n, b]⟩) 1 x y h (ix2 r q) rfl (ix2 r p)
    (fun e => by
      match e with
      | ⟨0, _⟩ => rfl
      | ⟨1, _⟩ => exact hp.symm)

/-- Column `q` of the pair, where `q` is `a` columns past a column `p` of the second matrix. -/
theorem cols_right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (r : Fin n) (q : Fin c) (p : Fin b) (hp : q.val = a + p.val) :
    concatenate ⟨2, ![n, c]⟩ 1 [⟨⟨2, ![n, a]⟩, x⟩, ⟨⟨2, ![n, b]⟩, y⟩] h (ix2 r q) = y (ix2 r p) :=
  concatenate_pair_apply_right (t := ⟨2, ![n, c]⟩) (s₁ := ⟨2, ![n, a]⟩) (s₂ := ⟨2, ![n, b]⟩) 1 x y h (ix2 r q) rfl rfl (ix2 r p)
    (fun e he => by
      match e with
      | ⟨0, _⟩ => rfl
      | ⟨1, _⟩ => exact absurd rfl he)
    (by show p.val + a = q.val; omega)

end Read

/-! ## A sum over the pair's columns -/

/-- A sum over `c = a + b` positions: the first `a`, then the last `b`. -/
theorem sum_split {M : Type*} [AddCommMonoid M] {a b c : ℕ} (hc : c = a + b) (f : Fin c → M) :
    ∑ q : Fin c, f q
      = (∑ p : Fin a, f ⟨p.val, by have := p.isLt; omega⟩) + ∑ p : Fin b, f ⟨a + p.val, by have := p.isLt; omega⟩ := by
  subst hc
  exact Fin.sum_univ_add f

/-- Row `r` of the pair against column `j` of a matrix `W` of `c = a + b` rows: the first matrix's row against
    W's first `a` rows plus the second's against its last `b`. -/
theorem row_mul {M : Type} [AddCommMonoid M] [Mul M] {n a b c k : ℕ} (hc : c = a + b)
    (x : (⟨2, ![n, a]⟩ : Shape).Idx → M) (y : (⟨2, ![n, b]⟩ : Shape).Idx → M)
    (h : Shape.Concatenates [(⟨2, ![n, a]⟩ : Shape), ⟨2, ![n, b]⟩] ⟨2, ![n, c]⟩ 1)
    (W : (⟨2, ![c, k]⟩ : Shape).Idx → M) (r : Fin n) (j : Fin k) :
    ∑ q : Fin c, concatenate ⟨2, ![n, c]⟩ 1 [⟨⟨2, ![n, a]⟩, x⟩, ⟨⟨2, ![n, b]⟩, y⟩] h (ix2 r q) * W (ix2 q j)
      = (∑ p : Fin a, x (ix2 r p) * W (ix2 ⟨p.val, by have := p.isLt; omega⟩ j))
        + ∑ p : Fin b, y (ix2 r p) * W (ix2 ⟨a + p.val, by have := p.isLt; omega⟩ j) := by
  rw [sum_split hc]
  congr 1
  · refine Finset.sum_congr rfl fun p _ => ?_
    rw [cols_left x y h r _ p rfl]
  · refine Finset.sum_congr rfl fun p _ => ?_
    rw [cols_right x y h r _ p rfl]

end Idealize.ShloMosaic.ConcatCols

end
-- ==== Proof.RefValue.lean ====
/-
  The reference's two results are the LSTM cell's new hidden state and new cell state.

  The reference joins the hidden state and the input side by side into one 4096 × 4096 matrix, joins the four gates'
  weight matrices side by side into one 4096 × 8192 matrix and the four biases end to end into one vector of 8192
  entries, takes ONE product and adds the bias row, and cuts the result into the four gates' pre-activations: gate g
  owns columns 2048·g … 2048·g + 2047. Column 2048·g + c of the joined weights is column c of gate g's matrix, entry
  2048·g + c of the joined biases is entry c of gate g's bias, and row r of the joined input against a column of 4096
  weights is the hidden state's row against the first 2048 of them plus the input's row against the last 2048. So the
  pre-activation the reference cuts out for gate g at (r, c) is the cell's. The reference spells the logistic function
  as 1 / (1 + e^(−z)), which is its definition on the extended reals.
-/
import proofs.«182229_j63505386439276_1_alg».proof.Proof.Gen.ReferenceIdeal.Read
import proofs.«182229_j63505386439276_1_alg».proof.Proof.CellSpec
import proofs.«182229_j63505386439276_1_alg».proof.Proof.LibConcatFour
import proofs.«182229_j63505386439276_1_alg».proof.Proof.LibConcatCols
import Idealize.ShloMosaic.Lib.IdealHost
import Idealize.ShloMosaic.Lib.ValueIdx
import Idealize.ShloMosaic.PureOps.Ideal.Laws

open scoped BigOperators

noncomputable section

namespace Cert.LstmCell.Reference

open Idealize.ShloMosaic Idealize.ShloMosaic.ValueIdx
open Cert.ReferenceIdeal Cert.ReferenceIdeal.Gen Cert.ReferenceIdeal.Read Cert.LstmCell

variable (x0 x1 x2 x3 x5 x7 x9 : FVec Ideal S4096x2048 .f32) (x4 x6 x8 x10 : FVec Ideal S2048 .f32)

/-- The reference's spelling of the logistic function. -/
theorem sigmoid_host (z : EReal) :
    Ideal.div (Ideal.ofBits .f32 0x3F800000#32) (Ideal.ofBits .f32 0x3F800000#32 + Ideal.exp (-z)) = Ideal.logistic z := by
  rw [Ideal.ofBits_one_f32]
  rfl

/-- The joined pre-activations at row `r`, column `2048·g + c`: gate `g`'s pre-activation at `(r, c)`. -/
theorem preact (g : Fin 4) (r : Fin 4096) (c : Fin 2048) (j : S4096x8192.Idx)
    (h0 : (j 0).val = r.val) (h1 : (j 1).val = g.val * 2048 + c.val) :
    val_main_v6 (F := Ideal) x0 x1 x3 x4 x5 x6 x7 x8 x9 x10 j = gate x1 x0 (![x3, x5, x7, x9] g) (![x4, x6, x8, x10] g) r c := by
  rw [val_main_v6_apply, val_main_v3_apply, val_main_v5_apply, val_main_v4_apply]
  show (∑ k : Fin 4096, val_main_v0 (F := Ideal) x0 x1 (lidx_main_v3 j k) * val_main_v1 (F := Ideal) x3 x5 x7 x9 (ridx_main_v3 j k))
      + val_main_v2 (F := Ideal) x4 x6 x8 x10 (idx_main_v4 (idx_main_v5 j)) = _
  have hW : ∀ k : Fin 4096, val_main_v1 (F := Ideal) x3 x5 x7 x9 (ridx_main_v3 j k) = (![x3, x5, x7, x9] g) (ix2 k c) := fun k =>
    ConcatFour.cols_apply x3 x5 x7 x9 concatenates_S4096x2048_S4096x2048_S4096x2048_S4096x2048_S4096x8192_d1
      (ridx_main_v3 j k) g k c rfl h1
  have hL : ∀ k : Fin 4096, lidx_main_v3 j k = ix2 r k := fun k => by
    funext a
    apply Fin.ext
    match a with
    | ⟨0, _⟩ => exact h0
    | ⟨1, _⟩ => rfl
  have hb : val_main_v2 (F := Ideal) x4 x6 x8 x10 (idx_main_v4 (idx_main_v5 j)) = (![x4, x6, x8, x10] g) (ix1 c) :=
    ConcatFour.vecs_apply x4 x6 x8 x10 concatenates_S2048_S2048_S2048_S2048_S8192_d0 (idx_main_v4 (idx_main_v5 j)) g c h1
  rw [hb]
  unfold gate
  congr 1
  refine (Finset.sum_congr rfl fun k _ => by rw [hW k, hL k]).trans ?_
  exact ConcatCols.row_mul (by norm_num : 4096 = 2048 + 2048) x1 x0 concatenates_S4096x2048_S4096x2048_S4096x4096_d1
    (![x3, x5, x7, x9] g) r c

/-- The reference's second result is the new cell state. -/
theorem cell_eq : val_main_v32 (F := Ideal) x0 x1 x2 x3 x4 x5 x6 x7 x8 x9 x10 = nextCell x0 x1 x2 x3 x4 x5 x6 x9 x10 := by
  funext i
  have hf := preact x0 x1 x3 x5 x7 x9 x4 x6 x8 x10 (0 : Fin 4) (i 0) (i 1) (idx_main_v7 i) rfl
    (by show (i 1).val = 0 * 2048 + (i 1).val; omega)
  have hi' := preact x0 x1 x3 x5 x7 x9 x4 x6 x8 x10 (1 : Fin 4) (i 0) (i 1) (idx_main_v8 i) rfl
    (by show 2048 + (i 1).val = 1 * 2048 + (i 1).val; omega)
  have hc := preact x0 x1 x3 x5 x7 x9 x4 x6 x8 x10 (3 : Fin 4) (i 0) (i 1) (idx_main_v10 i) rfl
    (by show 6144 + (i 1).val = 3 * 2048 + (i 1).val; omega)
  rw [val_main_v32_apply, val_main_v30_apply, val_main_v31_apply, val_main_v16_apply, val_main_v22_apply, val_main_v29_apply,
    val_main_v15_apply, val_main_cst_0_apply, val_main_v14_apply, val_main_v13_apply, val_main_cst_apply, val_main_v12_apply,
    val_main_v11_apply, val_main_v7_apply, hf,
    val_main_v21_apply, val_main_cst_2_apply, val_main_v20_apply, val_main_v19_apply, val_main_cst_1_apply, val_main_v18_apply,
    val_main_v17_apply, val_main_v8_apply, hi', val_main_v10_apply, hc]
  show Ideal.div (Ideal.ofBits .f32 0x3F800000#32) (Ideal.ofBits .f32 0x3F800000#32 + Ideal.exp (-(gate x1 x0 (![x3, x5, x7, x9] 0) (![x4, x6, x8, x10] 0) (i 0) (i 1)))) * x2 i
      + Ideal.div (Ideal.ofBits .f32 0x3F800000#32) (Ideal.ofBits .f32 0x3F800000#32 + Ideal.exp (-(gate x1 x0 (![x3, x5, x7, x9] 1) (![x4, x6, x8, x10] 1) (i 0) (i 1))))
        * Ideal.tanh (gate x1 x0 (![x3, x5, x7, x9] 3) (![x4, x6, x8, x10] 3) (i 0) (i 1)) = _
  rw [sigmoid_host, sigmoid_host]
  rfl

/-- The reference's first result is the new hidden state. -/
theorem hidden_eq : val_main_v34 (F := Ideal) x0 x1 x2 x3 x4 x5 x6 x7 x8 x9 x10 = nextHidden x0 x1 x2 x3 x4 x5 x6 x7 x8 x9 x10 := by
  funext i
  have ho := preact x0 x1 x3 x5 x7 x9 x4 x6 x8 x10 (2 : Fin 4) (i 0) (i 1) (idx_main_v9 i) rfl
    (by show 4096 + (i 1).val = 2 * 2048 + (i 1).val; omega)
  rw [val_main_v34_apply, val_main_v33_apply, cell_eq, val_main_v28_apply, val_main_v27_apply, val_main_cst_4_apply,
    val_main_v26_apply, val_main_v25_apply, val_main_cst_3_apply, val_main_v24_apply, val_main_v23_apply, val_main_v9_apply, ho]
  show Ideal.div (Ideal.ofBits .f32 0x3F800000#32) (Ideal.ofBits .f32 0x3F800000#32 + Ideal.exp (-(gate x1 x0 (![x3, x5, x7, x9] 2) (![x4, x6, x8, x10] 2) (i 0) (i 1))))
      * Ideal.tanh (nextCell x0 x1 x2 x3 x4 x5 x6 x9 x10 i) = _
  rw [sigmoid_host]
  rfl

end Cert.LstmCell.Reference

end
-- ==== Proof.lean ====
/-
  An LSTM cell's single step, computed tile by tile by one kernel, against the same step computed by one joined
  product: the two programs' results are equal as extended reals, entry by entry.

  Both programs compute, for each of the four gates g, the pre-activation

      z_g(r, c) = ( Σ_l h(r, l) · W_g(l, c)  +  Σ_l x(r, l) · W_g(2048 + l, c) )  +  b_g(c)

  and from the four of them the new cell state σ(z_f) · c + σ(z_i) · tanh(z_c) and the new hidden state
  σ(z_o) · tanh(c'). The kernel cuts each weight matrix into the rows that meet the hidden state and the rows that meet
  the input, takes the two products separately on 512 × 256 tiles and adds them; the reference joins the hidden state
  and the input into one row of 4096 features, joins the four gates' weights and biases, takes one product and cuts
  the four gates out of it. A sum over 4096 features is the sum over the first 2048 plus the sum over the last 2048:
  that is the only law between the two sides, and it needs nothing of the inputs (addition on the extended reals is
  commutative and associative), so the precondition is never opened. A change of float format is the identity at the
  ideal values, and the reference's 1 / (1 + e^(−z)) is the logistic function's definition there.

  The ideal pass rewrote nothing, so the kernel's idealization is the kernel's own text read at the ideal values.
-/
import proofs.«182229_j63505386439276_1_alg».proof.Defs
import proofs.«182229_j63505386439276_1_alg».proof.Proof.Gen.Kernel
import proofs.«182229_j63505386439276_1_alg».proof.Proof.Gen.Kernel.Skeleton
import proofs.«182229_j63505386439276_1_alg».proof.Proof.Gen.Kernel.Launch
import proofs.«182229_j63505386439276_1_alg».proof.Proof.Gen.Kernel.Points
import proofs.«182229_j63505386439276_1_alg».proof.Proof.Gen.Kernel.Frame
import proofs.«182229_j63505386439276_1_alg».proof.Proof.Gen.KernelIdeal
import proofs.«182229_j63505386439276_1_alg».proof.Proof.Gen.KernelIdeal.Skeleton
import proofs.«182229_j63505386439276_1_alg».proof.Proof.Gen.KernelIdeal.Launch
import proofs.«182229_j63505386439276_1_alg».proof.Proof.Gen.KernelIdeal.Points
import proofs.«182229_j63505386439276_1_alg».proof.Proof.Gen.KernelIdeal.Frame
import proofs.«182229_j63505386439276_1_alg».proof.Proof.Gen.ReferenceIdeal
import proofs.«182229_j63505386439276_1_alg».proof.Proof.Gen.KernelIdeal.Value
import proofs.«182229_j63505386439276_1_alg».proof.Proof.Gen.ReferenceIdeal.Run
import proofs.«182229_j63505386439276_1_alg».proof.Proof.Gen.ReferenceIdeal.Read
import proofs.«182229_j63505386439276_1_alg».proof.Proof.Gen.Pre_finite_inputs
import proofs.«182229_j63505386439276_1_alg».proof.Proof.KernelValue
import proofs.«182229_j63505386439276_1_alg».proof.Proof.RefValue
import Idealize.ShloMosaic.Adequacy
import Idealize.ShloMosaic.Init

noncomputable section

namespace Cert.Proof

open Idealize.ShloMosaic Idealize.SL.Sem Cert.LstmCell

/-- The kernel as printed terminates without a fault and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the eleven arguments, the kernel's two result arrays and the reference's two results
    are the cell's new hidden state and new cell state of those arguments. -/
theorem algebraic : Cert.algebraic_KernelIdeal_ReferenceIdeal := by
  intro m ρ m' ρ' _ hagree
  refine ⟨fun c => nextHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => nextCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.LstmCell.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v34_eq, Cert.LstmCell.Reference.hidden_eq, a0, a1, a2, a3, a4, a5, a6, a7, a8, a9, a10]
  · obtain ⟨a0, a1, a2, a3, a4, a5, a6, a7, a8, a9, a10⟩ := hagree c
    rw [Cert.ReferenceIdeal.Read.val_main_v32_eq, Cert.LstmCell.Reference.cell_eq, a0, a1, a2, a3, a4, a5, a6, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
